-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x2048 .f32) (main_arg5 : FVec F S1024 .f32) (main_arg6 : FVec F S1024x2048 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x1024 .f32) (main_arg1 : FVec F S16384x1024 .f32) (main_arg2 : FVec F S1024x2048 .f32) (main_arg3 : FVec F S1024 .f32) (main_arg4 : FVec F S1024x2048 .f32) (main_arg5 : FVec F S1024 .f32) (main_arg6 : FVec F S1024x2048 .f32) (main_arg7 : FVec F S1024 .f32) (main_arg8 : FVec F S1024x1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S3072x1024 : Shape := ⟨2, ![3072, 1024]⟩
abbrev S1024x3072 : Shape := ⟨2, ![1024, 3072]⟩
abbrev S2048x1024 : Shape := ⟨2, ![2048, 1024]⟩
abbrev S1x1024 : Shape := ⟨2, ![1, 1024]⟩

abbrev nBuf : Space → Nat
  | .hbm => 32
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S3072x1024, .f32⟩
  | .hbm, ⟨17, _⟩ => ⟨S1024x3072, .f32⟩
  | .hbm, ⟨18, _⟩ => ⟨S1024x3072, .bf16⟩
  | .hbm, ⟨19, _⟩ => ⟨S2048x1024, .f32⟩
  | .hbm, ⟨20, _⟩ => ⟨S1024x2048, .f32⟩
  | .hbm, ⟨21, _⟩ => ⟨S1024x2048, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024x1024_S1024x1024_S2048x1024_d0 : Shape.Concatenates [S1024x1024, S1024x1024] S2048x1024 0
  transposes_S2048x1024_S1024x2048_1_0 : S2048x1024.Transposes [1, 0] S1024x2048
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x3072_o0_0_S1024x1024 : S1024x3072.Slices ![0, 0] S1024x1024
  slices_S1024x3072_o0_1024_S1024x1024 : S1024x3072.Slices ![0, 1024] S1024x1024
  slices_S1024x3072_o0_2048_S1024x1024 : S1024x3072.Slices ![0, 2048] S1024x1024
  slices_S1024x2048_o0_0_S1024x1024 : S1024x2048.Slices ![0, 0] S1024x1024
  slices_S1024x2048_o0_1024_S1024x1024 : S1024x2048.Slices ![0, 1024] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x1024 : S1024x1024.ShapeCasts S1024x1024
  dot_S1024x1024_S1024x3072_S1024x3072_1_0_0_1_n_n_wf : DotDims.WF S1024x1024 S1024x3072 S1024x3072 [1] [0] [0] [1] [] []
  dot_S1024x1024_S1024x2048_S1024x2048_1_0_0_1_n_n_wf : DotDims.WF S1024x1024 S1024x2048 S1024x2048 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S16384x1024.size a
  hwx0_10 : ∀ i : grid0.Coords, EltTy.bits .f32 = 32 ∨ (Rect.block (s := S16384x1024) S1024x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S16384x1024.size a
  hwx0_11 : ∀ i : grid0.Coords, EltTy.bits .f32 = 32 ∨ (Rect.block (s := S16384x1024) S1024x1024.size (cc0_transform_11 i) (hinb0_11 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20_0) S1024x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v20_1) S1024x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S1024x1024, .f32⟩
  | .hbm, ⟨33, _⟩ => ⟨S16384x1024, .f32⟩
  | .hbm, ⟨34, _⟩ => ⟨S1024x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S1024x1024, .f32⟩
  | .hbm, ⟨49, _⟩ => ⟨S16384x1024, .f32⟩
  | .hbm, ⟨50, _⟩ => ⟨S16384x1024, .f32⟩
  | .hbm, ⟨51, _⟩ => ⟨S1024x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S1024x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.EntryK.lean ====
/-
  What the kernel's region finds in memory.

  @main is twenty host operations (slices of the three gate matrices, their concatenations and transposes, the
  changes of format, the biases reshaped to one-row matrices) followed by the one region. So when the region is
  entered, core c's buffer b holds the fold of those operations over the launch memory; every host operation
  writes a fresh temporary, hence each of the ten argument arrays is still what the launch put there.
-/
import proofs.«407502_j34686155882626_3_alg».proof.Proof.Gen.Kernel.Launch
import proofs.«407502_j34686155882626_3_alg».proof.Proof.Gen.Kernel.Skeleton
import proofs.«407502_j34686155882626_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers when the region is entered: the host operations folded over the launch memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

end Cert.Kernel.Hand

end
-- ==== Proof.FrameK.lean ====
/-
  The kernel's region runs to its end, faults nowhere and leaves the argument arrays as they were.

  The region has sixteen points, one per block of 1024 rows. At a point the body is handed twelve staging
  buffers: ten inputs (the blocks of x and of the hidden state, four resident weight matrices, four resident
  bias rows) and two outputs (the blocks of the output and of the new hidden state). It loads the ten inputs
  whole, computes, and stores each output whole, once; the two loads of the output buffers that precede the
  stores are dead. So after the body each input buffer still holds its block, and each output buffer holds the
  one stored value as a function of the ten input blocks. With that as the proof data, the body's triple comes
  from running the body symbolically, and the pipeline's launch theorem gives the run: every array a window
  stages ends at what the proof data says, every other buffer as the region found it. The argument arrays are
  either staged inputs (unchanged by an input window) or buffers no window stages, and no host operation before
  the region writes them.
-/
import proofs.«407502_j34686155882626_3_alg».proof.Proof.EntryK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetches it or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetches it or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetches it or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the point fetches it or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every staged array at what the proof data says and every other buffer as the
    region found it: the ten argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses: each buffer whole -/

abbrev rA : Rect S1024x1024 := Rect.unit (s := S1024x1024) ![0, 0] S1024x1024.size inb_S1024x1024_S1024x1024_0_0
abbrev rX : Rect S1024x3072 := Rect.unit (s := S1024x3072) ![0, 0] S1024x3072.size inb_S1024x3072_S1024x3072_0_0
abbrev rH : Rect S1024x2048 := Rect.unit (s := S1024x2048) ![0, 0] S1024x2048.size inb_S1024x2048_S1024x2048_0_0
abbrev rB : Rect S1x1024 := Rect.unit (s := S1x1024) ![0, 0] S1x1024.size inb_S1x1024_S1x1024_0_0

/-! ## What the body leaves in each output buffer -/

/-- The new hidden state's buffer after the body, from the ten input blocks: its one store. -/
def out0_11 (x0 : Vec F S1024x1024 .f32) (x1 : Vec F S1024x1024 .f32) (x2 : Vec F S1024x3072 .bf16) (x3 : Vec F S1024x2048 .bf16) (x4 : Vec F S1024x1024 .bf16) (x5 : Vec F S1024x1024 .bf16) (x6 : Vec F S1x1024 .f32) (x7 : Vec F S1x1024 .f32) (x8 : Vec F S1x1024 .f32) (x9 : Vec F S1x1024 .f32) : Vec F S1024x1024 .f32 :=
  View.canon [⟨rA, k0_pay1 (View.ld x1 rA) (k0_pay5 (View.ld x1 rA) (View.ld x0 rA) (View.ld x2 rX) (View.ld x3 rH) (View.ld x7 rB)) (k0_pay6 (View.ld x1 rA) (View.ld x0 rA) (View.ld x2 rX) (View.ld x3 rH) (View.ld x6 rB) (View.ld x4 rA) (View.ld x8 rB)) (k0_pay7 (F := F))⟩]

/-- The output's buffer after the body, from the ten input blocks: its one store. -/
def out0_10 (x0 : Vec F S1024x1024 .f32) (x1 : Vec F S1024x1024 .f32) (x2 : Vec F S1024x3072 .bf16) (x3 : Vec F S1024x2048 .bf16) (x4 : Vec F S1024x1024 .bf16) (x5 : Vec F S1024x1024 .bf16) (x6 : Vec F S1x1024 .f32) (x7 : Vec F S1x1024 .f32) (x8 : Vec F S1x1024 .f32) (x9 : Vec F S1x1024 .f32) : Vec F S1024x1024 .f32 :=
  View.canon [⟨rA, k0_pay2 (View.ld x1 rA) (k0_pay5 (View.ld x1 rA) (View.ld x0 rA) (View.ld x2 rX) (View.ld x3 rH) (View.ld x7 rB)) (k0_pay6 (View.ld x1 rA) (View.ld x0 rA) (View.ld x2 rX) (View.ld x3 rH) (View.ld x6 rB) (View.ld x4 rA) (View.ld x8 rB)) (k0_pay7 (F := F)) (View.ld x5 rA) (View.ld x9 rB)⟩]

/-- One whole-buffer store covers the buffer. -/
theorem cover0 (p0 : Vec F S1024x1024 .f32) (y : S1024x1024.Idx) :
    ∃ pc ∈ ([⟨rA, p0⟩] : List (View.Piece (Elt F) S1024x1024 .f32)), y ∈ pc.1.set :=
  View.cover_of_tiled [⟨rA, p0⟩] S1024x1024.size (by rfl) y

/-! ## The body's triple -/

set_option maxHeartbeats 4000000 in
/-- The body on whole staging buffers, the inputs' at contents xW and the outputs' at anything, runs to the
    continuation with the inputs' as they were and each output's at its stored value. -/
theorem sound_kernel (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x3072 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole)
    (x0 : Vec F S1024x1024 .f32) (x1 : Vec F S1024x1024 .f32) (x2 : Vec F S1024x3072 .bf16) (x3 : Vec F S1024x2048 .bf16) (x4 : Vec F S1024x1024 .bf16) (x5 : Vec F S1024x1024 .bf16) (x6 : Vec F S1x1024 .f32) (x7 : Vec F S1x1024 .f32) (x8 : Vec F S1x1024 .f32) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0 _)
  iexists _; isplitr
  swap; · iexact H11
  ipureintro
  exact View.read_writes_eq_canon _ _ _ (cover0 _)

/-! ## The pipeline's proof data -/

/-- On core c: the arrays as the region finds them; after the body at point t each input's buffer at its block and
    each output's at its stored value of the input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every staged array ending at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to its end without a fault and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.EntryKI.lean ====
/-
  What the kernel's region finds in memory.

  @main is twenty host operations (slices of the three gate matrices, their concatenations and transposes, the
  changes of format, the biases reshaped to one-row matrices) followed by the one region. So when the region is
  entered, core c's buffer b holds the fold of those operations over the launch memory; every host operation
  writes a fresh temporary, hence each of the ten argument arrays is still what the launch put there.
-/
import proofs.«407502_j34686155882626_3_alg».proof.Proof.Gen.KernelIdeal.Launch
import proofs.«407502_j34686155882626_3_alg».proof.Proof.Gen.KernelIdeal.Skeleton
import proofs.«407502_j34686155882626_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers when the region is entered: the host operations folded over the launch memory. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

end Cert.KernelIdeal.Hand

end
-- ==== Proof.FrameKI.lean ====
/-
  The kernel's region runs to its end, faults nowhere and leaves the argument arrays as they were.

  The region has sixteen points, one per block of 1024 rows. At a point the body is handed twelve staging
  buffers: ten inputs (the blocks of x and of the hidden state, four resident weight matrices, four resident
  bias rows) and two outputs (the blocks of the output and of the new hidden state). It loads the ten inputs
  whole, computes, and stores each output whole, once; the two loads of the output buffers that precede the
  stores are dead. So after the body each input buffer still holds its block, and each output buffer holds the
  one stored value as a function of the ten input blocks. With that as the proof data, the body's triple comes
  from running the body symbolically, and the pipeline's launch theorem gives the run: every array a window
  stages ends at what the proof data says, every other buffer as the region found it. The argument arrays are
  either staged inputs (unchanged by an input window) or buffers no window stages, and no host operation before
  the region writes them.
-/
import proofs.«407502_j34686155882626_3_alg».proof.Proof.EntryKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the point fetches it or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether the point fetches it or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether the point fetches it or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether the point fetches it or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every staged array at what the proof data says and every other buffer as the
    region found it: the ten argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses: each buffer whole -/

abbrev rA : Rect S1024x1024 := Rect.unit (s := S1024x1024) ![0, 0] S1024x1024.size inb_S1024x1024_S1024x1024_0_0
abbrev rX : Rect S1024x3072 := Rect.unit (s := S1024x3072) ![0, 0] S1024x3072.size inb_S1024x3072_S1024x3072_0_0
abbrev rH : Rect S1024x2048 := Rect.unit (s := S1024x2048) ![0, 0] S1024x2048.size inb_S1024x2048_S1024x2048_0_0
abbrev rB : Rect S1x1024 := Rect.unit (s := S1x1024) ![0, 0] S1x1024.size inb_S1x1024_S1x1024_0_0

/-! ## What the body leaves in each output buffer -/

/-- The new hidden state's buffer after the body, from the ten input blocks: its one store. -/
def out0_11 (x0 : Vec F S1024x1024 .f32) (x1 : Vec F S1024x1024 .f32) (x2 : Vec F S1024x3072 .bf16) (x3 : Vec F S1024x2048 .bf16) (x4 : Vec F S1024x1024 .bf16) (x5 : Vec F S1024x1024 .bf16) (x6 : Vec F S1x1024 .f32) (x7 : Vec F S1x1024 .f32) (x8 : Vec F S1x1024 .f32) (x9 : Vec F S1x1024 .f32) : Vec F S1024x1024 .f32 :=
  View.canon [⟨rA, k0_pay1 (View.ld x1 rA) (k0_pay5 (View.ld x1 rA) (View.ld x0 rA) (View.ld x2 rX) (View.ld x3 rH) (View.ld x7 rB)) (k0_pay6 (View.ld x1 rA) (View.ld x0 rA) (View.ld x2 rX) (View.ld x3 rH) (View.ld x6 rB) (View.ld x4 rA) (View.ld x8 rB)) (k0_pay7 (F := F))⟩]

/-- The output's buffer after the body, from the ten input blocks: its one store. -/
def out0_10 (x0 : Vec F S1024x1024 .f32) (x1 : Vec F S1024x1024 .f32) (x2 : Vec F S1024x3072 .bf16) (x3 : Vec F S1024x2048 .bf16) (x4 : Vec F S1024x1024 .bf16) (x5 : Vec F S1024x1024 .bf16) (x6 : Vec F S1x1024 .f32) (x7 : Vec F S1x1024 .f32) (x8 : Vec F S1x1024 .f32) (x9 : Vec F S1x1024 .f32) : Vec F S1024x1024 .f32 :=
  View.canon [⟨rA, k0_pay2 (View.ld x1 rA) (k0_pay5 (View.ld x1 rA) (View.ld x0 rA) (View.ld x2 rX) (View.ld x3 rH) (View.ld x7 rB)) (k0_pay6 (View.ld x1 rA) (View.ld x0 rA) (View.ld x2 rX) (View.ld x3 rH) (View.ld x6 rB) (View.ld x4 rA) (View.ld x8 rB)) (k0_pay7 (F := F)) (View.ld x5 rA) (View.ld x9 rB)⟩]

/-- One whole-buffer store covers the buffer. -/
theorem cover0 (p0 : Vec F S1024x1024 .f32) (y : S1024x1024.Idx) :
    ∃ pc ∈ ([⟨rA, p0⟩] : List (View.Piece (Elt F) S1024x1024 .f32)), y ∈ pc.1.set :=
  View.cover_of_tiled [⟨rA, p0⟩] S1024x1024.size (by rfl) y

/-! ## The body's triple -/

set_option maxHeartbeats 4000000 in
/-- The body on whole staging buffers, the inputs' at contents xW and the outputs' at anything, runs to the
    continuation with the inputs' as they were and each output's at its stored value. -/
theorem sound_kernel (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x3072 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole)
    (x0 : Vec F S1024x1024 .f32) (x1 : Vec F S1024x1024 .f32) (x2 : Vec F S1024x3072 .bf16) (x3 : Vec F S1024x2048 .bf16) (x4 : Vec F S1024x1024 .bf16) (x5 : Vec F S1024x1024 .bf16) (x6 : Vec F S1x1024 .f32) (x7 : Vec F S1x1024 .f32) (x8 : Vec F S1x1024 .f32) (x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0 _)
  iexists _; isplitr
  swap; · iexact H11
  ipureintro
  exact View.read_writes_eq_canon _ _ _ (cover0 _)

/-! ## The pipeline's proof data -/

/-- On core c: the arrays as the region finds them; after the body at point t each input's buffer at its block and
    each output's at its stored value of the input blocks; the invariant the untouched rest; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every staged array ending at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to its end without a fault and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Spec.lean ====
/-
  One step of a gated recurrent cell, row by row.

  Each row of the batch is treated alone. With x the row of the input, h the row of the previous hidden state
  (1024 entries each) and, for every gate, a weight matrix W of 1024 rows and 2048 columns whose row j holds the
  weights applied to x in its first 1024 columns and the weights applied to h in its last 1024, and a bias b:

    pre W b x h j   = (∑ k, x k · W[j, k]) + (∑ k, h k · W[j, 1024 + k]) + b j
    gate W b x h j  = 1 / (1 + exp (−pre W b x h j))                                  (reset: W_r, update: W_z)
    cand x h j      = tanh ((∑ k, x k · W_c[j, k]) + (∑ k, (reset k · h k) · W_c[j, 1024 + k]) + b_c j)
    newh x h j      = (1 − update j) · cand j + update j · h j
    out x h j       = (∑ k, newh k · W_o[j, k]) + b_o j

  over the extended reals, every sum over the 1024 positions of a row, every sum and product grouped exactly as
  written (no law that fails at an infinity is used anywhere: the two programs this is compared with group their
  operations the same way). The literal one of "1 − update" is kept as the float pattern both programs print.
-/
import Idealize.ShloMosaic.Lib.ValueIdx
import Idealize.ShloMosaic.PureOps.Ideal

noncomputable section

namespace GruRow

open Idealize.ShloMosaic Idealize.ShloMosaic.ValueIdx

/-- A row of 1024 extended reals. -/
abbrev Row := Fin 1024 → EReal
/-- A gate's weights: 1024 rows, the x-part in columns 0‥1023 and the h-part in columns 1024‥2047. -/
abbrev GateW := (⟨2, ![1024, 2048]⟩ : Shape).Idx → EReal
/-- The output projection's weights. -/
abbrev OutW := (⟨2, ![1024, 1024]⟩ : Shape).Idx → EReal
/-- A bias vector. -/
abbrev Bias := (⟨1, ![1024]⟩ : Shape).Idx → EReal
/-- The batch of rows. -/
abbrev Batch := (⟨2, ![16384, 1024]⟩ : Shape).Idx → EReal

/-- Column k of the x-part. -/
def lo (k : Fin 1024) : Fin 2048 := ⟨k.val, by have := k.isLt; omega⟩
/-- Column k of the h-part. -/
def hi (k : Fin 1024) : Fin 2048 := ⟨1024 + k.val, by have := k.isLt; omega⟩

/-- The float pattern of 1.0, as both programs print it. -/
abbrev one : EReal := Ideal.ofBits .f32 0x3F800000#32

/-- A gate's argument: the x-part's product, plus the h-part's, plus the bias. -/
def pre (W : GateW) (b : Bias) (x h : Row) (j : Fin 1024) : EReal :=
  (∑ k : Fin 1024, x k * W (ix2 j (lo k))) + (∑ k : Fin 1024, h k * W (ix2 j (hi k))) + b (ix1 j)

/-- A gate: the logistic function of its argument. -/
def gate (W : GateW) (b : Bias) (x h : Row) (j : Fin 1024) : EReal := Ideal.logistic (pre W b x h j)

/-- The candidate state: the h-part sees h scaled by the reset gate. -/
def cand (Wr : GateW) (br : Bias) (Wc : GateW) (bc : Bias) (x h : Row) (j : Fin 1024) : EReal :=
  Ideal.tanh ((∑ k : Fin 1024, x k * Wc (ix2 j (lo k)))
    + (∑ k : Fin 1024, (gate Wr br x h k * h k) * Wc (ix2 j (hi k))) + bc (ix1 j))

/-- The new hidden state: the update gate mixes the candidate and the old state. -/
def newh (Wr : GateW) (br : Bias) (Wz : GateW) (bz : Bias) (Wc : GateW) (bc : Bias) (x h : Row) (j : Fin 1024) : EReal :=
  (one - gate Wz bz x h j) * cand Wr br Wc bc x h j + gate Wz bz x h j * h j

/-- The output: a linear map of the new hidden state. -/
def out (Wr : GateW) (br : Bias) (Wz : GateW) (bz : Bias) (Wc : GateW) (bc : Bias) (Wo : OutW) (bo : Bias)
    (x h : Row) (j : Fin 1024) : EReal :=
  (∑ k : Fin 1024, newh Wr br Wz bz Wc bc x h k * Wo (ix2 j k)) + bo (ix1 j)

/-- Row b of a batch. -/
def row (X : Batch) (b : Fin 16384) : Row := fun k => X (ix2 b k)

/-- The new hidden states of the whole batch. -/
def newhAll (Wr : GateW) (br : Bias) (Wz : GateW) (bz : Bias) (Wc : GateW) (bc : Bias) (X H : Batch) : Batch :=
  fun i => newh Wr br Wz bz Wc bc (row X (i 0)) (row H (i 0)) (i 1)

/-- The outputs of the whole batch. -/
def outAll (Wr : GateW) (br : Bias) (Wz : GateW) (bz : Bias) (Wc : GateW) (bc : Bias) (Wo : OutW) (bo : Bias)
    (X H : Batch) : Batch :=
  fun i => out Wr br Wz bz Wc bc Wo bo (row X (i 0)) (row H (i 0)) (i 1)

/-- What the kernel finds in its resident operands, in terms of the argument arrays: the three gates' x-parts laid side
    by side and transposed (1024 × 3072: column block g holds gate g's x-part, entry (k, j) the weight of x k in row j),
    the reset and update gates' h-parts likewise (1024 × 2048), the candidate's h-part and the output projection
    transposed (1024 × 1024), and the four biases as one-row matrices. -/
structure Staged
    (wx : (⟨2, ![1024, 3072]⟩ : Shape).Idx → EReal) (wh : (⟨2, ![1024, 2048]⟩ : Shape).Idx → EReal)
    (wc wo : (⟨2, ![1024, 1024]⟩ : Shape).Idx → EReal) (vr vz vc vo : (⟨2, ![1, 1024]⟩ : Shape).Idx → EReal)
    (Wr Wz Wc : GateW) (Wo : OutW) (br bz bc bo : Bias) : Prop where
  wx_r : ∀ k j : Fin 1024, wx (ix2 k (⟨j.val, by have := j.isLt; omega⟩ : Fin 3072)) = Wr (ix2 j (lo k))
  wx_z : ∀ k j : Fin 1024, wx (ix2 k (⟨1024 + j.val, by have := j.isLt; omega⟩ : Fin 3072)) = Wz (ix2 j (lo k))
  wx_c : ∀ k j : Fin 1024, wx (ix2 k (⟨2048 + j.val, by have := j.isLt; omega⟩ : Fin 3072)) = Wc (ix2 j (lo k))
  wh_r : ∀ k j : Fin 1024, wh (ix2 k (⟨j.val, by have := j.isLt; omega⟩ : Fin 2048)) = Wr (ix2 j (hi k))
  wh_z : ∀ k j : Fin 1024, wh (ix2 k (⟨1024 + j.val, by have := j.isLt; omega⟩ : Fin 2048)) = Wz (ix2 j (hi k))
  wc_c : ∀ k j : Fin 1024, wc (ix2 k j) = Wc (ix2 j (hi k))
  wo_o : ∀ k j : Fin 1024, wo (ix2 k j) = Wo (ix2 j k)
  b_r : ∀ j : Fin 1024, vr (ix2 (0 : Fin 1) j) = br (ix1 j)
  b_z : ∀ j : Fin 1024, vz (ix2 (0 : Fin 1) j) = bz (ix1 j)
  b_c : ∀ j : Fin 1024, vc (ix2 (0 : Fin 1) j) = bc (ix1 j)
  b_o : ∀ j : Fin 1024, vo (ix2 (0 : Fin 1) j) = bo (ix1 j)

end GruRow

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KernelRow.lean ====
/-
  The kernel body's two stored values, read at row p and column j of a block, are the row-wise cell of row p.

  The body multiplies the block of x by the three gates' x-parts laid side by side, and the block of the hidden state
  by the reset and update gates' h-parts laid side by side; column block g of such a product, at (p, j), is the sum
  over k of row p's entry k times gate g's weight (j, k). A matrix product into the zero accumulator is that plain sum
  over the extended reals, the changes of float format and the same-shape casts are the identity, a bias row spread
  over the rows reads its entry j. Given what the resident operands hold (the record `Staged`), the terms are the
  cell's, grouped the same way.
-/
import proofs.«407502_j34686155882626_3_alg».proof.Proof.Gen.KernelIdeal.Skeleton
import proofs.«407502_j34686155882626_3_alg».proof.Proof.Spec
import proofs.«407502_j34686155882626_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowValue

open Idealize.ShloMosaic Idealize.ShloMosaic.ValueIdx Cert.KernelIdeal Cert.KernelIdeal.Gen GruRow

variable {wx : Vec Ideal S1024x3072 .bf16} {wh : Vec Ideal S1024x2048 .bf16} {wc wo : Vec Ideal S1024x1024 .bf16}
  {vr vz vc vo : Vec Ideal S1x1024 .f32} {Wr Wz Wc : GateW} {Wo : OutW} {br bz bc bo : Bias}

/-- The product of the input block and the resident input weights, at an entry. -/
private theorem pay3_apply (xb : Vec Ideal S1024x1024 .f32) (wx : Vec Ideal S1024x3072 .bf16) (p : Fin 1024)
    (n : Fin 3072) : k0_pay3 (F := Ideal) xb wx (ix2 p n) = ∑ k : Fin 1024, xb (ix2 p k) * wx (ix2 k n) := by
  unfold k0_pay3
  simp only [matmul, shapeCast_self]
  exact PlainDot.matmul_zero_apply dot_S1024x1024_S1024x3072_S1024x3072_1_0_0_1_n_n rfl rfl rfl rfl rfl rfl rfl rfl
    none _ _ p n

/-- The product of the hidden block and the resident hidden weights, at an entry. -/
private theorem pay4_apply (hb : Vec Ideal S1024x1024 .f32) (wh : Vec Ideal S1024x2048 .bf16) (p : Fin 1024)
    (n : Fin 2048) : k0_pay4 (F := Ideal) hb wh (ix2 p n) = ∑ k : Fin 1024, hb (ix2 p k) * wh (ix2 k n) := by
  unfold k0_pay4
  simp only [matmul, shapeCast_self]
  exact PlainDot.matmul_zero_apply dot_S1024x1024_S1024x2048_S1024x2048_1_0_0_1_n_n rfl rfl rfl rfl rfl rfl rfl rfl
    none _ _ p n

/-- A column block of 1024 columns starting at column `off`, read at (p, j): the operand at (p, off + j). -/
private theorem slice_apply {N : Nat} (off : Nat) (x : (⟨2, ![1024, N]⟩ : Shape).Idx → EReal)
    (h : (⟨2, ![1024, N]⟩ : Shape).Slices ![0, off] S1024x1024) (p j : Fin 1024) (c : Fin N)
    (hc : c.val = off + j.val) : extractStridedSlice S1024x1024 ![0, off] x h (ix2 p j) = x (ix2 p c) :=
  extractStridedSlice_apply ![0, off] x h (ix2 p j) (ix2 p c) (fun a => match a with
    | ⟨0, _⟩ => by show p.val = 0 + p.val; omega
    | ⟨1, _⟩ => by show c.val = off + j.val; exact hc)

/-- A bias row spread over the 1024 rows, read at (p, j): the row's entry j. -/
private theorem bias_apply (v : Vec Ideal S1x1024 .f32) (hbc : S1x1024.Broadcasts S1024x1024) (p j : Fin 1024) :
    broadcastTo S1024x1024 v hbc (ix2 p j) = v (ix2 (0 : Fin 1) j) :=
  broadcastTo_apply v hbc (ix2 p j) (ix2 (0 : Fin 1) j) (fun a => match a with
    | ⟨0, _⟩ => rfl
    | ⟨1, _⟩ => rfl)

/-- A gate of the body at (p, j): the logistic function of the two products' column blocks at `off`, added, plus the
    bias row — the specification's gate, once the resident blocks are read as the gate's weights and bias. -/
private theorem gate_apply {W : GateW} {b : Bias} {v : Vec Ideal S1x1024 .f32} (off : Nat)
    (h3 : S1024x3072.Slices ![0, off] S1024x1024) (h4 : S1024x2048.Slices ![0, off] S1024x1024)
    (hbc : S1x1024.Broadcasts S1024x1024) (c3 : Fin 1024 → Fin 3072) (c4 : Fin 1024 → Fin 2048)
    (hc3 : ∀ j, (c3 j).val = off + j.val) (hc4 : ∀ j, (c4 j).val = off + j.val)
    (hx : ∀ k j : Fin 1024, wx (ix2 k (c3 j)) = W (ix2 j (lo k)))
    (hh : ∀ k j : Fin 1024, wh (ix2 k (c4 j)) = W (ix2 j (hi k)))
    (hv : ∀ j : Fin 1024, v (ix2 (0 : Fin 1) j) = b (ix1 j))
    (hb xb : Vec Ideal S1024x1024 .f32) (p j : Fin 1024) :
    logistic (addf (addf (extractStridedSlice S1024x1024 ![0, off] (k0_pay3 (F := Ideal) xb wx) h3)
        (extractStridedSlice S1024x1024 ![0, off] (k0_pay4 (F := Ideal) hb wh) h4))
        (broadcastTo S1024x1024 v hbc)) (ix2 p j)
      = gate W b (fun k => xb (ix2 p k)) (fun k => hb (ix2 p k)) j := by
  show Ideal.logistic ((extractStridedSlice S1024x1024 ![0, off] (k0_pay3 (F := Ideal) xb wx) h3 (ix2 p j)
        + extractStridedSlice S1024x1024 ![0, off] (k0_pay4 (F := Ideal) hb wh) h4 (ix2 p j))
        + broadcastTo S1024x1024 v hbc (ix2 p j)) = _
  rw [slice_apply off _ h3 p j (c3 j) (hc3 j), slice_apply off _ h4 p j (c4 j) (hc4 j), bias_apply, pay3_apply,
    pay4_apply, hv j]
  unfold gate pre
  congr 3
  · exact Finset.sum_congr rfl fun k _ => by rw [hx k j]
  · exact Finset.sum_congr rfl fun k _ => by rw [hh k j]

/-- The update gate of the body at (p, j). -/
private theorem update_apply (hW : Staged wx wh wc wo vr vz vc vo Wr Wz Wc Wo br bz bc bo)
    (hb xb : Vec Ideal S1024x1024 .f32) (p j : Fin 1024) :
    k0_pay5 (F := Ideal) hb xb wx wh vz (ix2 p j) = gate Wz bz (fun k => xb (ix2 p k)) (fun k => hb (ix2 p k)) j := by
  unfold k0_pay5
  simp only [shapeCast_self]
  exact gate_apply 1024 _ _ _ (fun j => ⟨1024 + j.val, by have := j.isLt; omega⟩)
    (fun j => ⟨1024 + j.val, by have := j.isLt; omega⟩) (fun _ => rfl) (fun _ => rfl) hW.wx_z hW.wh_z hW.b_z hb xb p j

/-- The candidate state of the body at (p, j). -/
private theorem cand_apply (hW : Staged wx wh wc wo vr vz vc vo Wr Wz Wc Wo br bz bc bo)
    (hb xb : Vec Ideal S1024x1024 .f32) (p j : Fin 1024) :
    k0_pay6 (F := Ideal) hb xb wx wh vr wc vc (ix2 p j)
      = cand Wr br Wc bc (fun k => xb (ix2 p k)) (fun k => hb (ix2 p k)) j := by
  unfold k0_pay6
  simp only [matmul, shapeCast_self]
  show Ideal.tanh ((extractStridedSlice S1024x1024 ![0, 2048] (k0_pay3 (F := Ideal) xb wx) _ (ix2 p j)
        + FloatOps.matmul dot_S1024x1024_S1024x1024_S1024x1024_1_0_0_1_n_n none _ wc
            (constant (F := Ideal) S1024x1024 .f32 0x00000000#32) (ix2 p j))
        + broadcastTo S1024x1024 vc _ (ix2 p j)) = _
  rw [slice_apply 2048 _ _ p j ⟨2048 + j.val, by have := j.isLt; omega⟩ rfl, bias_apply, pay3_apply, hW.b_c j,
    PlainDot.matmul_zero_apply dot_S1024x1024_S1024x1024_S1024x1024_1_0_0_1_n_n rfl rfl rfl rfl rfl rfl rfl rfl
      none _ wc p j]
  unfold cand
  congr 3
  · exact Finset.sum_congr rfl fun k _ => by rw [hW.wx_c k j]
  · refine Finset.sum_congr rfl fun k _ => ?_
    show ((logistic (F := Ideal) (s := S1024x1024) (φ := .f32) _ (ix2 p k) : EReal) * (hb (ix2 p k) : EReal))
        * (wc (ix2 k j) : EReal) = _
    rw [gate_apply 0 _ _ _ (fun j => ⟨j.val, by have := j.isLt; omega⟩)
      (fun j => ⟨j.val, by have := j.isLt; omega⟩) (fun _ => (Nat.zero_add _).symm) (fun _ => (Nat.zero_add _).symm)
      hW.wx_r hW.wh_r hW.b_r hb xb p k, hW.wc_c k j]

theorem newh_apply (hW : Staged wx wh wc wo vr vz vc vo Wr Wz Wc Wo br bz bc bo) (hb xb : Vec Ideal S1024x1024 .f32)
    (p j : Fin 1024) :
    k0_pay1 (F := Ideal) hb (k0_pay5 hb xb wx wh vz) (k0_pay6 hb xb wx wh vr wc vc) (k0_pay7 (F := Ideal)) (ix2 p j)
      = newh Wr br Wz bz Wc bc (fun k => xb (ix2 p k)) (fun k => hb (ix2 p k)) j := by
  show ((one : EReal) - (k0_pay5 (F := Ideal) hb xb wx wh vz (ix2 p j) : EReal))
        * (k0_pay6 (F := Ideal) hb xb wx wh vr wc vc (ix2 p j) : EReal)
      + (k0_pay5 (F := Ideal) hb xb wx wh vz (ix2 p j) : EReal) * (hb (ix2 p j) : EReal) = _
  rw [update_apply hW, cand_apply hW]
  rfl

theorem out_apply (hW : Staged wx wh wc wo vr vz vc vo Wr Wz Wc Wo br bz bc bo) (hb xb : Vec Ideal S1024x1024 .f32)
    (p j : Fin 1024) :
    k0_pay2 (F := Ideal) hb (k0_pay5 hb xb wx wh vz) (k0_pay6 hb xb wx wh vr wc vc) (k0_pay7 (F := Ideal)) wo vo (ix2 p j)
      = out Wr br Wz bz Wc bc Wo bo (fun k => xb (ix2 p k)) (fun k => hb (ix2 p k)) j := by
  unfold k0_pay2
  simp only [matmul, shapeCast_self]
  show (FloatOps.matmul dot_S1024x1024_S1024x1024_S1024x1024_1_0_0_1_n_n none _ wo
          (constant (F := Ideal) S1024x1024 .f32 0x00000000#32) (ix2 p j) : EReal)
        + (broadcastTo S1024x1024 vo _ (ix2 p j) : EReal) = _
  rw [bias_apply, hW.b_o j,
    PlainDot.matmul_zero_apply dot_S1024x1024_S1024x1024_S1024x1024_1_0_0_1_n_n rfl rfl rfl rfl rfl rfl rfl rfl
      none _ wo p j]
  unfold out
  congr 1
  refine Finset.sum_congr rfl fun k _ => ?_
  show (k0_pay1 (F := Ideal) hb (k0_pay5 hb xb wx wh vz) (k0_pay6 hb xb wx wh vr wc vc) (k0_pay7 (F := Ideal)) (ix2 p k)
      : EReal) * (wo (ix2 k j) : EReal) = _
  rw [newh_apply hW, hW.wo_o k j]

end Cert.KernelIdeal.RowValue

end
-- ==== Proof.HostWeights.lean ====
/-
  What the kernel finds in its eight resident operands.

  Before the region, @main cuts each gate matrix (1024 rows, 2048 columns) into its x-part (columns 0‥1023) and its
  h-part (columns 1024‥2047), stacks the three x-parts on top of each other and transposes the stack, so that entry
  (k, g·1024 + j) of the result is gate g's weight of x k in row j; does the same with the reset and update gates'
  h-parts; transposes the candidate's h-part and the output projection; and reshapes each bias to a one-row matrix.
  The changes of float format are the identity on the extended reals. Read at an index, operation by operation, this
  is the record `Staged` of proof/Proof/Spec.lean.
-/
import proofs.«407502_j34686155882626_3_alg».proof.Proof.EntryKI
import proofs.«407502_j34686155882626_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostWeights

open Idealize.ShloMosaic Idealize.ShloMosaic.TcCoe Idealize.ShloMosaic.ValueIdx Idealize.SL.Sem
open Cert.KernelIdeal Cert.KernelIdeal.Gen Cert.KernelIdeal.Hand GruRow

variable (m : (ℓ : Loc nD τ sig) → Buf (Elt Ideal) ℓ)

/-! ## What each resident operand holds, as the host operations' term of the arguments -/

/-- A three-operand operation's result with each operand's contents at its own reference. -/
private theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k
  match k with | ⟨0, _⟩ => rfl | ⟨1, _⟩ => rfl | ⟨2, _⟩ => rfl

/-- The three gates' x-parts: sliced, stacked, transposed, narrowed. -/
private theorem v8_eq (c : Dev nD) : V m c main_v8 =
    (truncf (F := Ideal) .bf16 (transpose S1024x3072 [1, 0]
      (concatenate S3072x1024 0
        [⟨S1024x1024, extractStridedSlice S1024x1024 ![0, 0] (m ((c : Thread nD τ).loc main_arg2)) slices_S1024x2048_S1024x1024_0_0⟩,
         ⟨S1024x1024, extractStridedSlice S1024x1024 ![0, 0] (m ((c : Thread nD τ).loc main_arg4)) slices_S1024x2048_S1024x1024_0_0⟩,
         ⟨S1024x1024, extractStridedSlice S1024x1024 ![0, 0] (m ((c : Thread nD τ).loc main_arg6)) slices_S1024x2048_S1024x1024_0_0⟩]
        concatenates_S1024x1024_S1024x1024_S1024x1024_S3072x1024_d0)
      transposes_S3072x1024_S1024x3072_1_0) bitsLt_bf16_f32 : FVec Ideal S1024x3072 .bf16) := by
  dsimp only [V, hostOps0]
  simp only [StableHlo.after_cons, StableHlo.after_nil]
  repeat (first
    | rw [StableHlo.unary_result] | rw [StableHlo.binary_result] | rw [StableHlo.reshape_result] | rw [nary3_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-- The candidate gate's h-part: sliced, transposed, narrowed. -/
private theorem v13_eq (c : Dev nD) : V m c main_v13 =
    (truncf (F := Ideal) .bf16 (transpose S1024x1024 [1, 0]
      (extractStridedSlice S1024x1024 ![0, 1024] (m ((c : Thread nD τ).loc main_arg6)) slices_S1024x2048_S1024x1024_0_1024)
      transposes_S1024x1024_S1024x1024_1_0) bitsLt_bf16_f32 : FVec Ideal S1024x1024 .bf16) := by
  dsimp only [V, hostOps0]
  after_results

/-- The output projection: transposed, narrowed. -/
private theorem v15_eq (c : Dev nD) : V m c main_v15 =
    (truncf (F := Ideal) .bf16 (transpose S1024x1024 [1, 0] (m ((c : Thread nD τ).loc main_arg8))
      transposes_S1024x1024_S1024x1024_1_0) bitsLt_bf16_f32 : FVec Ideal S1024x1024 .bf16) := by
  dsimp only [V, hostOps0]
  after_results

/-- The reset and update gates' h-parts: sliced, stacked, transposed, narrowed. -/
private theorem v11_eq (c : Dev nD) : V m c main_v11 =
    (truncf (F := Ideal) .bf16 (transpose S1024x2048 [1, 0]
      (concatenate S2048x1024 0
        [⟨S1024x1024, extractStridedSlice S1024x1024 ![0, 1024] (m ((c : Thread nD τ).loc main_arg2)) slices_S1024x2048_S1024x1024_0_1024⟩,
         ⟨S1024x1024, extractStridedSlice S1024x1024 ![0, 1024] (m ((c : Thread nD τ).loc main_arg4)) slices_S1024x2048_S1024x1024_0_1024⟩]
        concatenates_S1024x1024_S1024x1024_S2048x1024_d0)
      transposes_S2048x1024_S1024x2048_1_0) bitsLt_bf16_f32 : FVec Ideal S1024x2048 .bf16) := by
  dsimp only [V, hostOps0]
  after_results

/-- The reset gate's bias as a one-row matrix. -/
private theorem v16_eq (c : Dev nD) : V m c main_v16 =
    (shapeCast S1x1024 (m ((c : Thread nD τ).loc main_arg3)) shapeCasts_S1024_S1x1024 : FVec Ideal S1x1024 .f32) := by
  dsimp only [V, hostOps0]
  after_results
  rfl
/-- The update gate's bias as a one-row matrix. -/
private theorem v17_eq (c : Dev nD) : V m c main_v17 =
    (shapeCast S1x1024 (m ((c : Thread nD τ).loc main_arg5)) shapeCasts_S1024_S1x1024 : FVec Ideal S1x1024 .f32) := by
  dsimp only [V, hostOps0]
  after_results
  rfl
/-- The candidate's bias as a one-row matrix. -/
private theorem v18_eq (c : Dev nD) : V m c main_v18 =
    (shapeCast S1x1024 (m ((c : Thread nD τ).loc main_arg7)) shapeCasts_S1024_S1x1024 : FVec Ideal S1x1024 .f32) := by
  dsimp only [V, hostOps0]
  after_results
  rfl
/-- The output projection's bias as a one-row matrix. -/
private theorem v19_eq (c : Dev nD) : V m c main_v19 =
    (shapeCast S1x1024 (m ((c : Thread nD τ).loc main_arg9)) shapeCasts_S1024_S1x1024 : FVec Ideal S1x1024 .f32) := by
  dsimp only [V, hostOps0]
  after_results
  rfl

/-! ## The layout operations read at an index -/

/-- A slice that keeps the first 1024 columns reads the same entry of the whole matrix. -/
private theorem slice_lo (W : GateW) (j k : Fin 1024) :
    extractStridedSlice S1024x1024 ![0, 0] W slices_S1024x2048_S1024x1024_0_0 (ix2 j k) = W (ix2 j (lo k)) :=
  extractStridedSlice_apply ![0, 0] W slices_S1024x2048_S1024x1024_0_0 (ix2 j k) (ix2 j (lo k)) (fun a => match a with
    | ⟨0, _⟩ => by show j.val = 0 + j.val; omega
    | ⟨1, _⟩ => by show k.val = 0 + k.val; omega)

/-- A slice that keeps the last 1024 columns reads the entry 1024 columns to the right. -/
private theorem slice_hi (W : GateW) (j k : Fin 1024) :
    extractStridedSlice S1024x1024 ![0, 1024] W slices_S1024x2048_S1024x1024_0_1024 (ix2 j k) = W (ix2 j (hi k)) :=
  extractStridedSlice_apply ![0, 1024] W slices_S1024x2048_S1024x1024_0_1024 (ix2 j k) (ix2 j (hi k)) (fun a => match a with
    | ⟨0, _⟩ => by show j.val = 0 + j.val; omega
    | ⟨1, _⟩ => by show 1024 + k.val = 1024 + k.val; omega)

section Stack
variable {α : Type}

/-- Two square blocks stacked: a row of the first block. -/
private theorem cat2_0 (x0 x1 : S1024x1024.Idx → α) (j k : Fin 1024) :
    concatenate S2048x1024 0 [⟨S1024x1024, x0⟩, ⟨S1024x1024, x1⟩] concatenates_S1024x1024_S1024x1024_S2048x1024_d0
      (ix2 (⟨j.val, by have := j.isLt; omega⟩ : Fin 2048) k) = x0 (ix2 j k) :=
  concatenate_pair_apply_left (t := S2048x1024) (s₁ := S1024x1024) (s₂ := S1024x1024) (0 : Fin 2) x0 x1
    concatenates_S1024x1024_S1024x1024_S2048x1024_d0 (ix2 (⟨j.val, by have := j.isLt; omega⟩ : Fin 2048) k) rfl (ix2 j k)
    (fun b => match b with | ⟨0, _⟩ => rfl | ⟨1, _⟩ => rfl)

/-- Two square blocks stacked: a row of the second block. -/
private theorem cat2_1 (x0 x1 : S1024x1024.Idx → α) (j k : Fin 1024) :
    concatenate S2048x1024 0 [⟨S1024x1024, x0⟩, ⟨S1024x1024, x1⟩] concatenates_S1024x1024_S1024x1024_S2048x1024_d0
      (ix2 (⟨1024 + j.val, by have := j.isLt; omega⟩ : Fin 2048) k) = x1 (ix2 j k) :=
  concatenate_pair_apply_right (t := S2048x1024) (s₁ := S1024x1024) (s₂ := S1024x1024) (0 : Fin 2) x0 x1
    concatenates_S1024x1024_S1024x1024_S2048x1024_d0 (ix2 (⟨1024 + j.val, by have := j.isLt; omega⟩ : Fin 2048) k) rfl rfl (ix2 j k)
    (fun b hb => match b, hb with | ⟨0, _⟩, hb => absurd rfl hb | ⟨1, _⟩, _ => rfl)
    (by show j.val + 1024 = 1024 + j.val; omega)

/-- Three square blocks stacked: a row of block 0. -/
private theorem cat3_0 (x0 x1 x2 : S1024x1024.Idx → α) (j k : Fin 1024) :
    concatenate S3072x1024 0 [⟨S1024x1024, x0⟩, ⟨S1024x1024, x1⟩, ⟨S1024x1024, x2⟩]
      concatenates_S1024x1024_S1024x1024_S1024x1024_S3072x1024_d0
      (ix2 (⟨j.val, by have := j.isLt; omega⟩ : Fin 3072) k) = x0 (ix2 j k) :=
  concatenate_apply_piece (t := S3072x1024) (0 : Fin 2) [⟨S1024x1024, x0⟩, ⟨S1024x1024, x1⟩, ⟨S1024x1024, x2⟩]
    concatenates_S1024x1024_S1024x1024_S1024x1024_S3072x1024_d0
    (ix2 (⟨j.val, by have := j.isLt; omega⟩ : Fin 3072) k) 0 (by show (0 : ℕ) < 3; omega) S1024x1024 x0 rfl rfl 0
    rfl (ix2 j k)
    (fun b hb => match b, hb with | ⟨0, _⟩, hb => absurd rfl hb | ⟨1, _⟩, _ => rfl)
    (by show 0 + j.val = j.val; omega)

/-- Three square blocks stacked: a row of block 1. -/
private theorem cat3_1 (x0 x1 x2 : S1024x1024.Idx → α) (j k : Fin 1024) :
    concatenate S3072x1024 0 [⟨S1024x1024, x0⟩, ⟨S1024x1024, x1⟩, ⟨S1024x1024, x2⟩]
      concatenates_S1024x1024_S1024x1024_S1024x1024_S3072x1024_d0
      (ix2 (⟨1024 + j.val, by have := j.isLt; omega⟩ : Fin 3072) k) = x1 (ix2 j k) :=
  concatenate_apply_piece (t := S3072x1024) (0 : Fin 2) [⟨S1024x1024, x0⟩, ⟨S1024x1024, x1⟩, ⟨S1024x1024, x2⟩]
    concatenates_S1024x1024_S1024x1024_S1024x1024_S3072x1024_d0
    (ix2 (⟨1024 + j.val, by have := j.isLt; omega⟩ : Fin 3072) k) 1 (by show (1 : ℕ) < 3; omega) S1024x1024 x1 rfl rfl 1024
    rfl (ix2 j k)
    (fun b hb => match b, hb with | ⟨0, _⟩, hb => absurd rfl hb | ⟨1, _⟩, _ => rfl)
    (by show 1024 + j.val = 1024 + j.val; omega)

/-- Three square blocks stacked: a row of block 2. -/
private theorem cat3_2 (x0 x1 x2 : S1024x1024.Idx → α) (j k : Fin 1024) :
    concatenate S3072x1024 0 [⟨S1024x1024, x0⟩, ⟨S1024x1024, x1⟩, ⟨S1024x1024, x2⟩]
      concatenates_S1024x1024_S1024x1024_S1024x1024_S3072x1024_d0
      (ix2 (⟨2048 + j.val, by have := j.isLt; omega⟩ : Fin 3072) k) = x2 (ix2 j k) :=
  concatenate_apply_piece (t := S3072x1024) (0 : Fin 2) [⟨S1024x1024, x0⟩, ⟨S1024x1024, x1⟩, ⟨S1024x1024, x2⟩]
    concatenates_S1024x1024_S1024x1024_S1024x1024_S3072x1024_d0
    (ix2 (⟨2048 + j.val, by have := j.isLt; omega⟩ : Fin 3072) k) 2 (by show (2 : ℕ) < 3; omega) S1024x1024 x2 rfl rfl 2048
    rfl (ix2 j k)
    (fun b hb => match b, hb with | ⟨0, _⟩, hb => absurd rfl hb | ⟨1, _⟩, _ => rfl)
    (by show 2048 + j.val = 2048 + j.val; omega)

end Stack

/-- A one-row matrix made from a vector reads, at column j, the vector's entry j. -/
private theorem bias_read (b : (⟨1, ![1024]⟩ : Shape).Idx → EReal) (j : Fin 1024) :
    shapeCast S1x1024 b shapeCasts_S1024_S1x1024 (ix2 (0 : Fin 1) j) = b (ix1 j) :=
  (shapeCast_addUnit_apply ![1024] b shapeCasts_S1024_S1x1024 (ix2 (0 : Fin 1) j)).trans
    (congrArg b (funext fun a => match a with | ⟨0, _⟩ => rfl))

/-! ## The resident operands entry by entry -/

/-- Entry (k, j) of the x-weights is the reset gate's weight of x k in row j. -/
private theorem wx_r (c : Dev nD) (k j : Fin 1024) :
    V m c main_v8 (ix2 k (⟨j.val, by have := j.isLt; omega⟩ : Fin 3072)) = m ((c : Thread nD τ).loc main_arg2) (ix2 j (lo k)) := by
  refine (congrFun (v8_eq m c) _).trans ?_
  refine (truncf_apply (ψ := .bf16) _ bitsLt_bf16_f32 _).trans ?_
  refine (transpose_apply [1, 0] _ transposes_S3072x1024_S1024x3072_1_0
    (ix2 k (⟨j.val, by have := j.isLt; omega⟩ : Fin 3072))
    (ix2 (⟨j.val, by have := j.isLt; omega⟩ : Fin 3072) k)
    (fun b => match b with | ⟨0, _⟩ => rfl | ⟨1, _⟩ => rfl)).trans ?_
  refine (cat3_0 _ _ _ j k).trans ?_
  exact slice_lo _ j k

/-- Entry (k, 1024 + j) of the x-weights is the update gate's weight of x k in row j. -/
private theorem wx_z (c : Dev nD) (k j : Fin 1024) :
    V m c main_v8 (ix2 k (⟨1024 + j.val, by have := j.isLt; omega⟩ : Fin 3072)) = m ((c : Thread nD τ).loc main_arg4) (ix2 j (lo k)) := by
  refine (congrFun (v8_eq m c) _).trans ?_
  refine (truncf_apply (ψ := .bf16) _ bitsLt_bf16_f32 _).trans ?_
  refine (transpose_apply [1, 0] _ transposes_S3072x1024_S1024x3072_1_0
    (ix2 k (⟨1024 + j.val, by have := j.isLt; omega⟩ : Fin 3072))
    (ix2 (⟨1024 + j.val, by have := j.isLt; omega⟩ : Fin 3072) k)
    (fun b => match b with | ⟨0, _⟩ => rfl | ⟨1, _⟩ => rfl)).trans ?_
  refine (cat3_1 _ _ _ j k).trans ?_
  exact slice_lo _ j k

/-- Entry (k, 2048 + j) of the x-weights is the candidate's weight of x k in row j. -/
private theorem wx_c (c : Dev nD) (k j : Fin 1024) :
    V m c main_v8 (ix2 k (⟨2048 + j.val, by have := j.isLt; omega⟩ : Fin 3072)) = m ((c : Thread nD τ).loc main_arg6) (ix2 j (lo k)) := by
  refine (congrFun (v8_eq m c) _).trans ?_
  refine (truncf_apply (ψ := .bf16) _ bitsLt_bf16_f32 _).trans ?_
  refine (transpose_apply [1, 0] _ transposes_S3072x1024_S1024x3072_1_0
    (ix2 k (⟨2048 + j.val, by have := j.isLt; omega⟩ : Fin 3072))
    (ix2 (⟨2048 + j.val, by have := j.isLt; omega⟩ : Fin 3072) k)
    (fun b => match b with | ⟨0, _⟩ => rfl | ⟨1, _⟩ => rfl)).trans ?_
  refine (cat3_2 _ _ _ j k).trans ?_
  exact slice_lo _ j k

/-- Entry (k, j) of the h-weights is the reset gate's weight of h k in row j. -/
private theorem wh_r (c : Dev nD) (k j : Fin 1024) :
    V m c main_v11 (ix2 k (⟨j.val, by have := j.isLt; omega⟩ : Fin 2048)) = m ((c : Thread nD τ).loc main_arg2) (ix2 j (hi k)) := by
  refine (congrFun (v11_eq m c) _).trans ?_
  refine (truncf_apply (ψ := .bf16) _ bitsLt_bf16_f32 _).trans ?_
  refine (transpose_apply [1, 0] _ transposes_S2048x1024_S1024x2048_1_0
    (ix2 k (⟨j.val, by have := j.isLt; omega⟩ : Fin 2048))
    (ix2 (⟨j.val, by have := j.isLt; omega⟩ : Fin 2048) k)
    (fun b => match b with | ⟨0, _⟩ => rfl | ⟨1, _⟩ => rfl)).trans ?_
  refine (cat2_0 _ _ j k).trans ?_
  exact slice_hi _ j k

/-- Entry (k, 1024 + j) of the h-weights is the update gate's weight of h k in row j. -/
private theorem wh_z (c : Dev nD) (k j : Fin 1024) :
    V m c main_v11 (ix2 k (⟨1024 + j.val, by have := j.isLt; omega⟩ : Fin 2048)) = m ((c : Thread nD τ).loc main_arg4) (ix2 j (hi k)) := by
  refine (congrFun (v11_eq m c) _).trans ?_
  refine (truncf_apply (ψ := .bf16) _ bitsLt_bf16_f32 _).trans ?_
  refine (transpose_apply [1, 0] _ transposes_S2048x1024_S1024x2048_1_0
    (ix2 k (⟨1024 + j.val, by have := j.isLt; omega⟩ : Fin 2048))
    (ix2 (⟨1024 + j.val, by have := j.isLt; omega⟩ : Fin 2048) k)
    (fun b => match b with | ⟨0, _⟩ => rfl | ⟨1, _⟩ => rfl)).trans ?_
  refine (cat2_1 _ _ j k).trans ?_
  exact slice_hi _ j k

/-- Entry (k, j) of the candidate's h-weights is its weight of h k in row j. -/
private theorem wc_c (c : Dev nD) (k j : Fin 1024) :
    V m c main_v13 (ix2 k j) = m ((c : Thread nD τ).loc main_arg6) (ix2 j (hi k)) := by
  refine (congrFun (v13_eq m c) _).trans ?_
  refine (truncf_apply (ψ := .bf16) _ bitsLt_bf16_f32 _).trans ?_
  refine (transpose_apply [1, 0] _ transposes_S1024x1024_S1024x1024_1_0 (ix2 k j) (ix2 j k)
    (fun b => match b with | ⟨0, _⟩ => rfl | ⟨1, _⟩ => rfl)).trans ?_
  exact slice_hi _ j k

/-- Entry (k, j) of the transposed output projection is its entry (j, k). -/
private theorem wo_o (c : Dev nD) (k j : Fin 1024) :
    V m c main_v15 (ix2 k j) = m ((c : Thread nD τ).loc main_arg8) (ix2 j k) := by
  refine (congrFun (v15_eq m c) _).trans ?_
  refine (truncf_apply (ψ := .bf16) _ bitsLt_bf16_f32 _).trans ?_
  exact transpose_apply [1, 0] _ transposes_S1024x1024_S1024x1024_1_0 (ix2 k j) (ix2 j k)
    (fun b => match b with | ⟨0, _⟩ => rfl | ⟨1, _⟩ => rfl)

/-- Column j of each one-row bias matrix is entry j of the bias. -/
private theorem b_r (c : Dev nD) (j : Fin 1024) :
    V m c main_v16 (ix2 (0 : Fin 1) j) = m ((c : Thread nD τ).loc main_arg3) (ix1 j) :=
  (congrFun (v16_eq m c) _).trans (bias_read _ j)
private theorem b_z (c : Dev nD) (j : Fin 1024) :
    V m c main_v17 (ix2 (0 : Fin 1) j) = m ((c : Thread nD τ).loc main_arg5) (ix1 j) :=
  (congrFun (v17_eq m c) _).trans (bias_read _ j)
private theorem b_c (c : Dev nD) (j : Fin 1024) :
    V m c main_v18 (ix2 (0 : Fin 1) j) = m ((c : Thread nD τ).loc main_arg7) (ix1 j) :=
  (congrFun (v18_eq m c) _).trans (bias_read _ j)
private theorem b_o (c : Dev nD) (j : Fin 1024) :
    V m c main_v19 (ix2 (0 : Fin 1) j) = m ((c : Thread nD τ).loc main_arg9) (ix1 j) :=
  (congrFun (v19_eq m c) _).trans (bias_read _ j)

theorem staged (c : Dev nD) :
    Staged (V m c main_v8) (V m c main_v11) (V m c main_v13) (V m c main_v15)
      (V m c main_v16) (V m c main_v17) (V m c main_v18) (V m c main_v19)
      (m ((c : Thread nD τ).loc main_arg2)) (m ((c : Thread nD τ).loc main_arg4)) (m ((c : Thread nD τ).loc main_arg6))
      (m ((c : Thread nD τ).loc main_arg8))
      (m ((c : Thread nD τ).loc main_arg3)) (m ((c : Thread nD τ).loc main_arg5)) (m ((c : Thread nD τ).loc main_arg7))
      (m ((c : Thread nD τ).loc main_arg9)) := by
  exact ⟨wx_r m c, wx_z m c, wx_c m c, wh_r m c, wh_z m c, wc_c m c, wo_o m c, b_r m c, b_z m c, b_c m c, b_o m c⟩

end Cert.KernelIdeal.HostWeights

end
-- ==== Proof.KernelValue.lean ====
/-
  The kernel's two result arrays, as functions of the argument arrays.

  Point t of the region works on rows 1024·t ‥ 1024·t + 1023 of the batch: its blocks of x and of the hidden state
  are those rows, and its eight resident operands are whole arrays, the same at every point. Row p of what the
  body stores is the row-wise cell of row p of the two blocks, so what the point writes back is block t of the
  whole-batch result; the sixteen blocks cover the batch, so each result array ends as the whole-batch result.
-/
import proofs.«407502_j34686155882626_3_alg».proof.Proof.FrameKI
import proofs.«407502_j34686155882626_3_alg».proof.Proof.KernelRow
import proofs.«407502_j34686155882626_3_alg».proof.Proof.HostWeights
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Hand GruRow
open Idealize.ShloMosaic.Pipeline (Dat)

variable (m : (ℓ : Loc nD τ sig) → Buf (Elt Ideal) ℓ) (ρ : Dev nD → PrngReg)

/-- The new hidden states of the whole batch, from the argument arrays. -/
def Gnewh (c : Dev nD) : S16384x1024.Idx → EReal :=
  newhAll (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))

/-- The outputs of the whole batch, from the argument arrays. -/
def Gout (c : Dev nD) : S16384x1024.Idx → EReal :=
  outAll (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg0)) (m ((c : Thread nD τ).loc main_arg1))

theorem hz : (![0, 0] : Fin 2 → Nat) = fun _ => 0 := funext fun a => by fin_cases a <;> rfl

/-! ## The index maps, decided over the sixteen points -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Row p of point t's block is row 1024·t + p of the batch. -/
def blkRow (t : Fin cfg0.N) (p : Fin 1024) : Fin 16384 :=
  ⟨1024 * t.val + p.val, by have ht : t.val < grid0.N := t.isLt; rw [N_0] at ht; have := p.isLt; omega⟩

/-! ## The blocks, each at its literal type -/

abbrev xblk (c : Dev nD) (t : Fin cfg0.N) : Vec Ideal S1024x1024 .f32 := iblk m c 0 t
abbrev hblk (c : Dev nD) (t : Fin cfg0.N) : Vec Ideal S1024x1024 .f32 := iblk m c 1 t
abbrev wxblk (c : Dev nD) (t : Fin cfg0.N) : Vec Ideal S1024x3072 .bf16 := iblk m c 2 t
abbrev whblk (c : Dev nD) (t : Fin cfg0.N) : Vec Ideal S1024x2048 .bf16 := iblk m c 3 t
abbrev wcblk (c : Dev nD) (t : Fin cfg0.N) : Vec Ideal S1024x1024 .bf16 := iblk m c 4 t
abbrev woblk (c : Dev nD) (t : Fin cfg0.N) : Vec Ideal S1024x1024 .bf16 := iblk m c 5 t
abbrev vrblk (c : Dev nD) (t : Fin cfg0.N) : Vec Ideal S1x1024 .f32 := iblk m c 6 t
abbrev vzblk (c : Dev nD) (t : Fin cfg0.N) : Vec Ideal S1x1024 .f32 := iblk m c 7 t
abbrev vcblk (c : Dev nD) (t : Fin cfg0.N) : Vec Ideal S1x1024 .f32 := iblk m c 8 t
abbrev voblk (c : Dev nD) (t : Fin cfg0.N) : Vec Ideal S1x1024 .f32 := iblk m c 9 t

/-- The block of x at a point: 1024 rows of the batch. -/
theorem xblk_apply (c : Dev nD) (t : Fin cfg0.N) (p k : Fin 1024) :
    xblk m c t (ix2 p k) = (m ((c : Thread nD τ).loc main_arg0)) (ix2 (blkRow t p) k) := by
  show V m c main_arg0 (((cfg0.win 0).blk t).view.emb (ix2 p k)) = _
  rw [V_main_arg0]
  refine congrArg (m ((c : Thread nD τ).loc main_arg0)) (funext fun a => Fin.ext ?_)
  obtain ⟨e0, e1⟩ := idx_0 t
  match a with
  | ⟨0, _⟩ => show win0_0.index t (0 : Fin 2) * 1024 + 1 * p.val = 1024 * t.val + p.val; omega
  | ⟨1, _⟩ => show win0_0.index t (1 : Fin 2) * 1024 + 1 * k.val = k.val; omega

/-- The block of the hidden state at a point: the same rows. -/
theorem hblk_apply (c : Dev nD) (t : Fin cfg0.N) (p k : Fin 1024) :
    hblk m c t (ix2 p k) = (m ((c : Thread nD τ).loc main_arg1)) (ix2 (blkRow t p) k) := by
  show V m c main_arg1 (((cfg0.win 1).blk t).view.emb (ix2 p k)) = _
  rw [V_main_arg1]
  refine congrArg (m ((c : Thread nD τ).loc main_arg1)) (funext fun a => Fin.ext ?_)
  obtain ⟨e0, e1⟩ := idx_1 t
  match a with
  | ⟨0, _⟩ => show win0_1.index t (0 : Fin 2) * 1024 + 1 * p.val = 1024 * t.val + p.val; omega
  | ⟨1, _⟩ => show win0_1.index t (1 : Fin 2) * 1024 + 1 * k.val = k.val; omega

theorem xrow_eq (c : Dev nD) (t : Fin cfg0.N) (p : Fin 1024) :
    (fun k : Fin 1024 => xblk m c t (ix2 p k)) = row (m ((c : Thread nD τ).loc main_arg0)) (blkRow t p) :=
  funext fun k => xblk_apply m c t p k

theorem hrow_eq (c : Dev nD) (t : Fin cfg0.N) (p : Fin 1024) :
    (fun k : Fin 1024 => hblk m c t (ix2 p k)) = row (m ((c : Thread nD τ).loc main_arg1)) (blkRow t p) :=
  funext fun k => hblk_apply m c t p k

/-! ## The resident operands: each block is its whole array, at every point -/

theorem wxblk_eq (c : Dev nD) (t : Fin cfg0.N) : wxblk m c t = V m c main_v8 := by
  refine funext fun (y : S1024x3072.Idx) => ?_
  show V m c main_v8 (((cfg0.win 2).blk t).view.emb y) = V m c main_v8 y
  refine congrArg (V m c main_v8) (funext fun a => Fin.ext ?_)
  obtain ⟨e0, e1⟩ := idx_2 t
  match a with
  | ⟨0, _⟩ => show win0_2.index t (0 : Fin 2) * 1024 + 1 * (y 0).val = (y 0).val; omega
  | ⟨1, _⟩ => show win0_2.index t (1 : Fin 2) * 3072 + 1 * (y 1).val = (y 1).val; omega
theorem whblk_eq (c : Dev nD) (t : Fin cfg0.N) : whblk m c t = V m c main_v11 := by
  refine funext fun (y : S1024x2048.Idx) => ?_
  show V m c main_v11 (((cfg0.win 3).blk t).view.emb y) = V m c main_v11 y
  refine congrArg (V m c main_v11) (funext fun a => Fin.ext ?_)
  obtain ⟨e0, e1⟩ := idx_3 t
  match a with
  | ⟨0, _⟩ => show win0_3.index t (0 : Fin 2) * 1024 + 1 * (y 0).val = (y 0).val; omega
  | ⟨1, _⟩ => show win0_3.index t (1 : Fin 2) * 2048 + 1 * (y 1).val = (y 1).val; omega
theorem wcblk_eq (c : Dev nD) (t : Fin cfg0.N) : wcblk m c t = V m c main_v13 := by
  refine funext fun (y : S1024x1024.Idx) => ?_
  show V m c main_v13 (((cfg0.win 4).blk t).view.emb y) = V m c main_v13 y
  refine congrArg (V m c main_v13) (funext fun a => Fin.ext ?_)
  obtain ⟨e0, e1⟩ := idx_4 t
  match a with
  | ⟨0, _⟩ => show win0_4.index t (0 : Fin 2) * 1024 + 1 * (y 0).val = (y 0).val; omega
  | ⟨1, _⟩ => show win0_4.index t (1 : Fin 2) * 1024 + 1 * (y 1).val = (y 1).val; omega
theorem woblk_eq (c : Dev nD) (t : Fin cfg0.N) : woblk m c t = V m c main_v15 := by
  refine funext fun (y : S1024x1024.Idx) => ?_
  show V m c main_v15 (((cfg0.win 5).blk t).view.emb y) = V m c main_v15 y
  refine congrArg (V m c main_v15) (funext fun a => Fin.ext ?_)
  obtain ⟨e0, e1⟩ := idx_5 t
  match a with
  | ⟨0, _⟩ => show win0_5.index t (0 : Fin 2) * 1024 + 1 * (y 0).val = (y 0).val; omega
  | ⟨1, _⟩ => show win0_5.index t (1 : Fin 2) * 1024 + 1 * (y 1).val = (y 1).val; omega
theorem vrblk_eq (c : Dev nD) (t : Fin cfg0.N) : vrblk m c t = V m c main_v16 := by
  refine funext fun (y : S1x1024.Idx) => ?_
  show V m c main_v16 (((cfg0.win 6).blk t).view.emb y) = V m c main_v16 y
  refine congrArg (V m c main_v16) (funext fun a => Fin.ext ?_)
  obtain ⟨e0, e1⟩ := idx_6 t
  match a with
  | ⟨0, _⟩ => show win0_6.index t (0 : Fin 2) * 1 + 1 * (y 0).val = (y 0).val; omega
  | ⟨1, _⟩ => show win0_6.index t (1 : Fin 2) * 1024 + 1 * (y 1).val = (y 1).val; omega
theorem vzblk_eq (c : Dev nD) (t : Fin cfg0.N) : vzblk m c t = V m c main_v17 := by
  refine funext fun (y : S1x1024.Idx) => ?_
  show V m c main_v17 (((cfg0.win 7).blk t).view.emb y) = V m c main_v17 y
  refine congrArg (V m c main_v17) (funext fun a => Fin.ext ?_)
  obtain ⟨e0, e1⟩ := idx_7 t
  match a with
  | ⟨0, _⟩ => show win0_7.index t (0 : Fin 2) * 1 + 1 * (y 0).val = (y 0).val; omega
  | ⟨1, _⟩ => show win0_7.index t (1 : Fin 2) * 1024 + 1 * (y 1).val = (y 1).val; omega
theorem vcblk_eq (c : Dev nD) (t : Fin cfg0.N) : vcblk m c t = V m c main_v18 := by
  refine funext fun (y : S1x1024.Idx) => ?_
  show V m c main_v18 (((cfg0.win 8).blk t).view.emb y) = V m c main_v18 y
  refine congrArg (V m c main_v18) (funext fun a => Fin.ext ?_)
  obtain ⟨e0, e1⟩ := idx_8 t
  match a with
  | ⟨0, _⟩ => show win0_8.index t (0 : Fin 2) * 1 + 1 * (y 0).val = (y 0).val; omega
  | ⟨1, _⟩ => show win0_8.index t (1 : Fin 2) * 1024 + 1 * (y 1).val = (y 1).val; omega
theorem voblk_eq (c : Dev nD) (t : Fin cfg0.N) : voblk m c t = V m c main_v19 := by
  refine funext fun (y : S1x1024.Idx) => ?_
  show V m c main_v19 (((cfg0.win 9).blk t).view.emb y) = V m c main_v19 y
  refine congrArg (V m c main_v19) (funext fun a => Fin.ext ?_)
  obtain ⟨e0, e1⟩ := idx_9 t
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- So at every point the body finds the gate matrices' parts where the row-wise cell expects them. -/
theorem staged_blk (c : Dev nD) (t : Fin cfg0.N) :
    Staged (wxblk m c t) (whblk m c t) (wcblk m c t) (woblk m c t) (vrblk m c t) (vzblk m c t) (vcblk m c t) (voblk m c t)
      (m ((c : Thread nD τ).loc main_arg2)) (m ((c : Thread nD τ).loc main_arg4)) (m ((c : Thread nD τ).loc main_arg6)) (m ((c : Thread nD τ).loc main_arg8))
      (m ((c : Thread nD τ).loc main_arg3)) (m ((c : Thread nD τ).loc main_arg5)) (m ((c : Thread nD τ).loc main_arg7)) (m ((c : Thread nD τ).loc main_arg9)) := by
  rw [wxblk_eq, whblk_eq, wcblk_eq, woblk_eq, vrblk_eq, vzblk_eq, vcblk_eq, voblk_eq]
  exact HostWeights.staged m c

/-! ## Output window 11 -/

/-- What point t writes back through window 11 is block t of the whole-batch result. -/
theorem flushed11_eq (c : Dev nD) (t : Fin cfg0.N) :
    (dats m 0 c).flushed 11 t = ((cfg0.win 11).blk t).view.read (Elt Ideal) (Gnewh m c) := by
  show (cfg0.win 11).cut (grid0.coords t) ((dats m 0 c).after 11 t) = _
  rw [after0_11]
  unfold out0_11
  rw [View.canon_unit_zero hz]
  simp only [View.ld_unit_zero (S := S1024x1024) hz, View.ld_unit_zero (S := S1024x3072) hz,
    View.ld_unit_zero (S := S1024x2048) hz, View.ld_unit_zero (S := S1x1024) hz]
  refine funext fun (y : S1024x1024.Idx) => ?_
  obtain ⟨p, j, rfl⟩ : ∃ (p : Fin 1024) (j : Fin 1024), y = ix2 p j := ⟨y 0, y 1, eq_ix2 y⟩
  show k0_pay1 (F := Ideal) (hblk m c t) (k0_pay5 (hblk m c t) (xblk m c t) (wxblk m c t) (whblk m c t) (vzblk m c t)) (k0_pay6 (hblk m c t) (xblk m c t) (wxblk m c t) (whblk m c t) (vrblk m c t) (wcblk m c t) (vcblk m c t)) (k0_pay7 (F := Ideal)) (ix2 p j)
    = Gnewh m c (((cfg0.win 11).blk t).view.emb (ix2 p j))
  refine (RowValue.newh_apply (staged_blk m c t) (hblk m c t) (xblk m c t) p j).trans ?_
  have he : ((cfg0.win 11).blk t).view.emb (ix2 p j) = ix2 (blkRow t p) j := by
    funext a; apply Fin.ext
    obtain ⟨e0, e1⟩ := idx_11 t
    match a with
    | ⟨0, _⟩ => show win0_11.index t (0 : Fin 2) * 1024 + 1 * p.val = 1024 * t.val + p.val; omega
    | ⟨1, _⟩ => show win0_11.index t (1 : Fin 2) * 1024 + 1 * j.val = j.val; omega
  rw [he, xrow_eq m c t p, hrow_eq m c t p]
  rfl

/-- An index of the array is in point t's block iff each coordinate is in the block's range on its axis. -/
theorem mem_blk11 (t : Fin cfg0.N) (i : S16384x1024.Idx) :
    i ∈ ((cfg0.win 11).blk t).view.set ↔ ∀ a : Fin 2, win0_11.index t a * S1024x1024.size a ≤ (i a).val ∧ (i a).val < win0_11.index t a * S1024x1024.size a + S1024x1024.size a := by
  show i ∈ ((View.whole main_v20_1).slice (win0_11.rect t)).set ↔ _
  rw [View.set_slice_whole, Rect.mem_set_unit]
  exact Iff.rfl

/-- Row r of the array lies in the block of point r / 1024: the sixteen blocks of 1024 rows cover the batch. -/
theorem cover11 (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  let t : Fin cfg0.N := ⟨(i 0).val / 1024, by show _ < grid0.N; rw [N_0]; omega⟩
  have ht : t.val = (i 0).val / 1024 := rfl
  refine ⟨t, flush0_11 t, ?_⟩
  rw [mem_blk11]
  obtain ⟨e0, e1⟩ := idx_11 t
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 1024 ≤ (i 1).val ∧ (i 1).val < win0_11.index t (1 : Fin 2) * 1024 + 1024; omega

/-- The array after the run is the whole-batch result. -/
theorem final11 (c : Dev nD) : (dats m 0 c).arrAt 11 cfg0.N = Gnewh m c :=
  (dats m 0 c).arrAt_eq_of_cover 11 (Gnewh m c) (fun t _ => flushed11_eq m c t) cover11

/-! ## Output window 10 -/

/-- What point t writes back through window 10 is block t of the whole-batch result. -/
theorem flushed10_eq (c : Dev nD) (t : Fin cfg0.N) :
    (dats m 0 c).flushed 10 t = ((cfg0.win 10).blk t).view.read (Elt Ideal) (Gout m c) := by
  show (cfg0.win 10).cut (grid0.coords t) ((dats m 0 c).after 10 t) = _
  rw [after0_10]
  unfold out0_10
  rw [View.canon_unit_zero hz]
  simp only [View.ld_unit_zero (S := S1024x1024) hz, View.ld_unit_zero (S := S1024x3072) hz,
    View.ld_unit_zero (S := S1024x2048) hz, View.ld_unit_zero (S := S1x1024) hz]
  refine funext fun (y : S1024x1024.Idx) => ?_
  obtain ⟨p, j, rfl⟩ : ∃ (p : Fin 1024) (j : Fin 1024), y = ix2 p j := ⟨y 0, y 1, eq_ix2 y⟩
  show k0_pay2 (F := Ideal) (hblk m c t) (k0_pay5 (hblk m c t) (xblk m c t) (wxblk m c t) (whblk m c t) (vzblk m c t)) (k0_pay6 (hblk m c t) (xblk m c t) (wxblk m c t) (whblk m c t) (vrblk m c t) (wcblk m c t) (vcblk m c t)) (k0_pay7 (F := Ideal)) (woblk m c t) (voblk m c t) (ix2 p j)
    = Gout m c (((cfg0.win 10).blk t).view.emb (ix2 p j))
  refine (RowValue.out_apply (staged_blk m c t) (hblk m c t) (xblk m c t) p j).trans ?_
  have he : ((cfg0.win 10).blk t).view.emb (ix2 p j) = ix2 (blkRow t p) j := by
    funext a; apply Fin.ext
    obtain ⟨e0, e1⟩ := idx_10 t
    match a with
    | ⟨0, _⟩ => show win0_10.index t (0 : Fin 2) * 1024 + 1 * p.val = 1024 * t.val + p.val; omega
    | ⟨1, _⟩ => show win0_10.index t (1 : Fin 2) * 1024 + 1 * j.val = j.val; omega
  rw [he, xrow_eq m c t p, hrow_eq m c t p]
  rfl

/-- An index of the array is in point t's block iff each coordinate is in the block's range on its axis. -/
theorem mem_blk10 (t : Fin cfg0.N) (i : S16384x1024.Idx) :
    i ∈ ((cfg0.win 10).blk t).view.set ↔ ∀ a : Fin 2, win0_10.index t a * S1024x1024.size a ≤ (i a).val ∧ (i a).val < win0_10.index t a * S1024x1024.size a + S1024x1024.size a := by
  show i ∈ ((View.whole main_v20_0).slice (win0_10.rect t)).set ↔ _
  rw [View.set_slice_whole, Rect.mem_set_unit]
  exact Iff.rfl

/-- Row r of the array lies in the block of point r / 1024: the sixteen blocks of 1024 rows cover the batch. -/
theorem cover10 (i : S16384x1024.Idx) :
    ∃ t : Fin cfg0.N, (cfg0.win 10).flush t = true ∧ i ∈ ((cfg0.win 10).blk t).view.set := by
  have hi0 : (i 0).val < 16384 := (i 0).isLt
  have hi1 : (i 1).val < 1024 := (i 1).isLt
  let t : Fin cfg0.N := ⟨(i 0).val / 1024, by show _ < grid0.N; rw [N_0]; omega⟩
  have ht : t.val = (i 0).val / 1024 := rfl
  refine ⟨t, flush0_10 t, ?_⟩
  rw [mem_blk10]
  obtain ⟨e0, e1⟩ := idx_10 t
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 1024 ≤ (i 1).val ∧ (i 1).val < win0_10.index t (1 : Fin 2) * 1024 + 1024; omega

/-- The array after the run is the whole-batch result. -/
theorem final10 (c : Dev nD) : (dats m 0 c).arrAt 10 cfg0.N = Gout m c :=
  (dats m 0 c).arrAt_eq_of_cover 10 (Gout m c) (fun t _ => flushed10_eq m c t) cover10

/-! ## The run, read -/

/-- Every weakly fair execution of @main terminates with the two result arrays at the whole-batch results and the
    ten argument arrays as launched. -/
theorem run : θ_run defs (onTc (τ := τ) (main (F := Ideal))) ⟨m, fun _ => 0, ρ⟩ fun r => ∀ c : Dev nD,
      r.2.mem ((c : Thread nD τ).loc main_v20_0) = Gout m c
      ∧ r.2.mem ((c : Thread nD τ).loc main_v20_1) = Gnewh m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final10 m c), ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.KValue

end
-- ==== Proof.RefValue.lean ====
/-
  The reference's two results are the row-wise cell.

  Read at position (b, j) of the batch, each product of the reference — a dot_general of the batch with a transposed
  slice of a gate matrix — is the sum over k of row b's entry k times the gate matrix's entry (j, k) or (j, 1024 + k);
  the host's negate, exponential, add and divide spell the logistic function; the broadcasts of a bias read its
  entry j. Stage by stage this is the cell of proof/Proof/Spec.lean at row b, with the same grouping throughout.
-/
import proofs.«407502_j34686155882626_3_alg».proof.Proof.Gen.ReferenceIdeal.Run
import proofs.«407502_j34686155882626_3_alg».proof.Proof.Gen.ReferenceIdeal.Read
import proofs.«407502_j34686155882626_3_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Gen Cert.ReferenceIdeal.Read GruRow

/-- Two indices of a matrix with the same coordinates are the same index. -/
private theorem idx2_ext {n0 n1 : Nat} (f g : (⟨2, ![n0, n1]⟩ : Shape).Idx)
    (h0 : (f 0).val = (g 0).val) (h1 : (f 1).val = (g 1).val) : f = g :=
  funext fun a => Fin.ext (by match a with | ⟨0, _⟩ => exact h0 | ⟨1, _⟩ => exact h1)

/-- Two indices of a vector with the same coordinate are the same index. -/
private theorem idx1_ext {n : Nat} (f g : (⟨1, ![n]⟩ : Shape).Idx) (h0 : (f 0).val = (g 0).val) : f = g :=
  funext fun a => Fin.ext (by match a with | ⟨0, _⟩ => exact h0)

/-- The r gate's argument, read at one position of the batch. -/
private theorem pre_r (x0 x1 : (⟨S16384x1024, .f32⟩ : BufTy).Contents (Elt Ideal)) (x2 : (⟨S1024x2048, .f32⟩ : BufTy).Contents (Elt Ideal))
    (x3 : (⟨S1024, .f32⟩ : BufTy).Contents (Elt Ideal)) (b : Fin 16384) (j : Fin 1024) :
    val_main_v13 (F := Ideal) x0 x1 x2 x3 (ix2 b j) = pre x2 x3 (row x0 b) (row x1 b) j := by
  rw [val_main_v13_apply, val_main_v10_apply, val_main_v7_apply, val_main_v9_apply, val_main_v12_apply, val_main_v11_apply]
  unfold pre row
  have hA : ∑ k, x0 (lidx_main_v7 (ix2 b j) k) * val_main_v6 x2 (ridx_main_v7 (ix2 b j) k)
      = ∑ k : Fin 1024, x0 (ix2 b k) * x2 (ix2 j (lo k)) :=
    Finset.sum_congr rfl fun k _ => by
      rw [val_main_v6_apply, val_main_v0_apply,
        idx2_ext (lidx_main_v7 (ix2 b j) k) (ix2 b k) rfl rfl,
        idx2_ext (idx_main_v0 (idx_main_v6 (ridx_main_v7 (ix2 b j) k))) (ix2 j (lo k)) rfl rfl]
  have hB : ∑ k, x1 (lidx_main_v9 (ix2 b j) k) * val_main_v8 x2 (ridx_main_v9 (ix2 b j) k)
      = ∑ k : Fin 1024, x1 (ix2 b k) * x2 (ix2 j (hi k)) :=
    Finset.sum_congr rfl fun k _ => by
      rw [val_main_v8_apply, val_main_v1_apply,
        idx2_ext (lidx_main_v9 (ix2 b j) k) (ix2 b k) rfl rfl,
        idx2_ext (idx_main_v1 (idx_main_v8 (ridx_main_v9 (ix2 b j) k))) (ix2 j (hi k)) rfl rfl]
  have hC : idx_main_v11 (idx_main_v12 (ix2 b j)) = ix1 j := idx1_ext _ _ rfl
  rw [hA, hB, hC]
  rfl

/-- The r gate, read at one position of the batch: the quotient of one by one plus the exponential of the negated
    argument is the logistic function, the literal one being the extended real one. -/
private theorem gate_r (x0 x1 : (⟨S16384x1024, .f32⟩ : BufTy).Contents (Elt Ideal)) (x2 : (⟨S1024x2048, .f32⟩ : BufTy).Contents (Elt Ideal))
    (x3 : (⟨S1024, .f32⟩ : BufTy).Contents (Elt Ideal)) (b : Fin 16384) (j : Fin 1024) :
    val_main_v19 (F := Ideal) x0 x1 x2 x3 (ix2 b j) = gate x2 x3 (row x0 b) (row x1 b) j := by
  rw [val_main_v19_apply, val_main_v18_apply, val_main_cst_0_apply, val_main_v17_apply, val_main_v16_apply, val_main_cst_apply,
    val_main_v15_apply, val_main_v14_apply, pre_r]
  unfold gate
  rw [Ideal.ofBits_def, Ideal.ofBits_one_f32]
  rfl

/-- The z gate's argument, read at one position of the batch. -/
private theorem pre_z (x0 x1 : (⟨S16384x1024, .f32⟩ : BufTy).Contents (Elt Ideal)) (x4 : (⟨S1024x2048, .f32⟩ : BufTy).Contents (Elt Ideal))
    (x5 : (⟨S1024, .f32⟩ : BufTy).Contents (Elt Ideal)) (b : Fin 16384) (j : Fin 1024) :
    val_main_v27 (F := Ideal) x0 x1 x4 x5 (ix2 b j) = pre x4 x5 (row x0 b) (row x1 b) j := by
  rw [val_main_v27_apply, val_main_v24_apply, val_main_v21_apply, val_main_v23_apply, val_main_v26_apply, val_main_v25_apply]
  unfold pre row
  have hA : ∑ k, x0 (lidx_main_v21 (ix2 b j) k) * val_main_v20 x4 (ridx_main_v21 (ix2 b j) k)
      = ∑ k : Fin 1024, x0 (ix2 b k) * x4 (ix2 j (lo k)) :=
    Finset.sum_congr rfl fun k _ => by
      rw [val_main_v20_apply, val_main_v2_apply,
        idx2_ext (lidx_main_v21 (ix2 b j) k) (ix2 b k) rfl rfl,
        idx2_ext (idx_main_v2 (idx_main_v20 (ridx_main_v21 (ix2 b j) k))) (ix2 j (lo k)) rfl rfl]
  have hB : ∑ k, x1 (lidx_main_v23 (ix2 b j) k) * val_main_v22 x4 (ridx_main_v23 (ix2 b j) k)
      = ∑ k : Fin 1024, x1 (ix2 b k) * x4 (ix2 j (hi k)) :=
    Finset.sum_congr rfl fun k _ => by
      rw [val_main_v22_apply, val_main_v3_apply,
        idx2_ext (lidx_main_v23 (ix2 b j) k) (ix2 b k) rfl rfl,
        idx2_ext (idx_main_v3 (idx_main_v22 (ridx_main_v23 (ix2 b j) k))) (ix2 j (hi k)) rfl rfl]
  have hC : idx_main_v25 (idx_main_v26 (ix2 b j)) = ix1 j := idx1_ext _ _ rfl
  rw [hA, hB, hC]
  rfl

/-- The z gate, read at one position of the batch: the quotient of one by one plus the exponential of the negated
    argument is the logistic function, the literal one being the extended real one. -/
private theorem gate_z (x0 x1 : (⟨S16384x1024, .f32⟩ : BufTy).Contents (Elt Ideal)) (x4 : (⟨S1024x2048, .f32⟩ : BufTy).Contents (Elt Ideal))
    (x5 : (⟨S1024, .f32⟩ : BufTy).Contents (Elt Ideal)) (b : Fin 16384) (j : Fin 1024) :
    val_main_v33 (F := Ideal) x0 x1 x4 x5 (ix2 b j) = gate x4 x5 (row x0 b) (row x1 b) j := by
  rw [val_main_v33_apply, val_main_v32_apply, val_main_cst_2_apply, val_main_v31_apply, val_main_v30_apply, val_main_cst_1_apply,
    val_main_v29_apply, val_main_v28_apply, pre_z]
  unfold gate
  rw [Ideal.ofBits_def, Ideal.ofBits_one_f32]
  rfl

/-- The candidate state, read at one position of the batch: the h-part's left operand at position k of the row is the
    reset gate at k times the old state at k. -/
private theorem cand_r (x0 x1 : (⟨S16384x1024, .f32⟩ : BufTy).Contents (Elt Ideal)) (x2 : (⟨S1024x2048, .f32⟩ : BufTy).Contents (Elt Ideal)) (x3 : (⟨S1024, .f32⟩ : BufTy).Contents (Elt Ideal)) (x6 : (⟨S1024x2048, .f32⟩ : BufTy).Contents (Elt Ideal)) (x7 : (⟨S1024, .f32⟩ : BufTy).Contents (Elt Ideal))
    (b : Fin 16384) (j : Fin 1024) :
    val_main_v43 (F := Ideal) x0 x1 x2 x3 x6 x7 (ix2 b j) = cand x2 x3 x6 x7 (row x0 b) (row x1 b) j := by
  rw [val_main_v43_apply, val_main_v42_apply, val_main_v39_apply, val_main_v35_apply, val_main_v38_apply, val_main_v41_apply, val_main_v40_apply]
  unfold cand
  have hA : ∑ k, x0 (lidx_main_v35 (ix2 b j) k) * val_main_v34 x6 (ridx_main_v35 (ix2 b j) k)
      = ∑ k : Fin 1024, row x0 b k * x6 (ix2 j (lo k)) :=
    Finset.sum_congr rfl fun k _ => by
      rw [val_main_v34_apply, val_main_v4_apply,
        idx2_ext (lidx_main_v35 (ix2 b j) k) (ix2 b k) rfl rfl,
        idx2_ext (idx_main_v4 (idx_main_v34 (ridx_main_v35 (ix2 b j) k))) (ix2 j (lo k)) rfl rfl]
      rfl
  have hB : ∑ k, val_main_v36 (F := Ideal) x0 x1 x2 x3 (lidx_main_v38 (ix2 b j) k) * val_main_v37 x6 (ridx_main_v38 (ix2 b j) k)
      = ∑ k : Fin 1024, (gate x2 x3 (row x0 b) (row x1 b) k * row x1 b k) * x6 (ix2 j (hi k)) :=
    Finset.sum_congr rfl fun k _ => by
      rw [val_main_v37_apply, val_main_v5_apply,
        idx2_ext (lidx_main_v38 (ix2 b j) k) (ix2 b k) rfl rfl,
        idx2_ext (idx_main_v5 (idx_main_v37 (ridx_main_v38 (ix2 b j) k))) (ix2 j (hi k)) rfl rfl,
        val_main_v36_apply, gate_r]
      rfl
  have hC : idx_main_v40 (idx_main_v41 (ix2 b j)) = ix1 j := idx1_ext _ _ rfl
  rw [hA, hB, hC]
  rfl

/-- The new hidden state, read at one position of the batch. -/
private theorem newh_r (x0 x1 : (⟨S16384x1024, .f32⟩ : BufTy).Contents (Elt Ideal)) (x2 : (⟨S1024x2048, .f32⟩ : BufTy).Contents (Elt Ideal)) (x3 : (⟨S1024, .f32⟩ : BufTy).Contents (Elt Ideal)) (x4 : (⟨S1024x2048, .f32⟩ : BufTy).Contents (Elt Ideal)) (x5 : (⟨S1024, .f32⟩ : BufTy).Contents (Elt Ideal)) (x6 : (⟨S1024x2048, .f32⟩ : BufTy).Contents (Elt Ideal)) (x7 : (⟨S1024, .f32⟩ : BufTy).Contents (Elt Ideal))
    (b : Fin 16384) (j : Fin 1024) :
    val_main_v48 (F := Ideal) x0 x1 x2 x3 x4 x5 x6 x7 (ix2 b j) = newh x2 x3 x4 x5 x6 x7 (row x0 b) (row x1 b) j := by
  rw [val_main_v48_apply, val_main_v46_apply, val_main_v45_apply, val_main_v44_apply, val_main_cst_3_apply, val_main_v47_apply,
    gate_z, cand_r, Ideal.ofBits_def]
  rfl

/-- The output, read at one position of the batch. -/
private theorem out_r (x0 x1 : (⟨S16384x1024, .f32⟩ : BufTy).Contents (Elt Ideal)) (x2 : (⟨S1024x2048, .f32⟩ : BufTy).Contents (Elt Ideal)) (x3 : (⟨S1024, .f32⟩ : BufTy).Contents (Elt Ideal)) (x4 : (⟨S1024x2048, .f32⟩ : BufTy).Contents (Elt Ideal)) (x5 : (⟨S1024, .f32⟩ : BufTy).Contents (Elt Ideal)) (x6 : (⟨S1024x2048, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) (b : Fin 16384) (j : Fin 1024) :
    val_main_v53 (F := Ideal) x0 x1 x2 x3 x4 x5 x6 x7 x8 x9 (ix2 b j) = out x2 x3 x4 x5 x6 x7 x8 x9 (row x0 b) (row x1 b) j := by
  rw [val_main_v53_apply, val_main_v50_apply, val_main_v52_apply, val_main_v51_apply]
  unfold out
  have hA : ∑ k, val_main_v48 (F := Ideal) x0 x1 x2 x3 x4 x5 x6 x7 (lidx_main_v50 (ix2 b j) k) * val_main_v49 x8 (ridx_main_v50 (ix2 b j) k)
      = ∑ k : Fin 1024, newh x2 x3 x4 x5 x6 x7 (row x0 b) (row x1 b) k * x8 (ix2 j k) :=
    Finset.sum_congr rfl fun k _ => by
      rw [val_main_v49_apply,
        idx2_ext (lidx_main_v50 (ix2 b j) k) (ix2 b k) rfl rfl,
        idx2_ext (idx_main_v49 (ridx_main_v50 (ix2 b j) k)) (ix2 j k) rfl rfl,
        newh_r]
  have hC : idx_main_v51 (idx_main_v52 (ix2 b j)) = ix1 j := idx1_ext _ _ rfl
  rw [hA, hC]
  rfl

theorem newh_eq (x0 x1 : (⟨S16384x1024, .f32⟩ : BufTy).Contents (Elt Ideal)) (x2 : (⟨S1024x2048, .f32⟩ : BufTy).Contents (Elt Ideal))
    (x3 : (⟨S1024, .f32⟩ : BufTy).Contents (Elt Ideal)) (x4 : (⟨S1024x2048, .f32⟩ : BufTy).Contents (Elt Ideal))
    (x5 : (⟨S1024, .f32⟩ : BufTy).Contents (Elt Ideal)) (x6 : (⟨S1024x2048, .f32⟩ : BufTy).Contents (Elt Ideal))
    (x7 : (⟨S1024, .f32⟩ : BufTy).Contents (Elt Ideal)) :
    val_main_v48 (F := Ideal) x0 x1 x2 x3 x4 x5 x6 x7 = newhAll x2 x3 x4 x5 x6 x7 x0 x1 := by
  funext i
  obtain ⟨b, j, rfl⟩ : ∃ (b : Fin 16384) (j : Fin 1024), i = ix2 b j := ⟨i 0, i 1, eq_ix2 i⟩
  exact newh_r x0 x1 x2 x3 x4 x5 x6 x7 b j

theorem out_eq (x0 x1 : (⟨S16384x1024, .f32⟩ : BufTy).Contents (Elt Ideal)) (x2 : (⟨S1024x2048, .f32⟩ : BufTy).Contents (Elt Ideal))
    (x3 : (⟨S1024, .f32⟩ : BufTy).Contents (Elt Ideal)) (x4 : (⟨S1024x2048, .f32⟩ : BufTy).Contents (Elt Ideal))
    (x5 : (⟨S1024, .f32⟩ : BufTy).Contents (Elt Ideal)) (x6 : (⟨S1024x2048, .f32⟩ : BufTy).Contents (Elt Ideal))
    (x7 : (⟨S1024, .f32⟩ : BufTy).Contents (Elt Ideal)) (x8 : (⟨S1024x1024, .f32⟩ : BufTy).Contents (Elt Ideal))
    (x9 : (⟨S1024, .f32⟩ : BufTy).Contents (Elt Ideal)) :
    val_main_v53 (F := Ideal) x0 x1 x2 x3 x4 x5 x6 x7 x8 x9 = outAll x2 x3 x4 x5 x6 x7 x8 x9 x0 x1 := by
  funext i
  obtain ⟨b, j, rfl⟩ : ∃ (b : Fin 16384) (j : Fin 1024), i = ix2 b j := ⟨i 0, i 1, eq_ix2 i⟩
  exact out_r x0 x1 x2 x3 x4 x5 x6 x7 x8 x9 b j

end Cert.ReferenceIdeal.RefValue

end
-- ==== Proof.lean ====
/-
  A gated recurrent cell: the Pallas kernel against its jnp reference, over the extended reals.

  Both programs compute, row by row of the batch, the cell of proof/Proof/Spec.lean: two logistic gates and a tanh
  candidate, each of a product with the x-part and the h-part of a gate matrix plus a bias, the new hidden state
  mixing candidate and old state, the output a linear map of the new hidden state.
  The reference spells each product as a host dot_general with a transposed slice of the gate matrix, and the
  logistic function as 1 / (1 + exp (−·)). The kernel lays the three x-parts side by side (and the reset and update
  gates' h-parts likewise), multiplies once, and cuts the product apart again; it treats 1024 rows per grid point.
  Column j of a product with matrices laid side by side is the product with the matrix that owns column j, the
  changes of float format are the identity on the extended reals, and the two spellings of the logistic function
  denote one function; every sum and product is grouped alike on both sides, so the two results are equal term by
  term and no law that fails at an infinity is needed (the precondition is not used).
  The three frames: the two kernel programs by the pipeline's launch theorem over the body's symbolic run
  (proof/Proof/FrameK.lean, FrameKI.lean), the reference by its run read back.
-/
import proofs.«407502_j34686155882626_3_alg».proof.Defs
import proofs.«407502_j34686155882626_3_alg».proof.Proof.Gen.Kernel
import proofs.«407502_j34686155882626_3_alg».proof.Proof.Gen.Kernel.Skeleton
import proofs.«407502_j34686155882626_3_alg».proof.Proof.Gen.Kernel.Launch
import proofs.«407502_j34686155882626_3_alg».proof.Proof.Gen.Kernel.Points
import proofs.«407502_j34686155882626_3_alg».proof.Proof.Gen.KernelIdeal
import proofs.«407502_j34686155882626_3_alg».proof.Proof.Gen.KernelIdeal.Skeleton
import proofs.«407502_j34686155882626_3_alg».proof.Proof.Gen.KernelIdeal.Launch
import proofs.«407502_j34686155882626_3_alg».proof.Proof.Gen.KernelIdeal.Points
import proofs.«407502_j34686155882626_3_alg».proof.Proof.Gen.ReferenceIdeal
import proofs.«407502_j34686155882626_3_alg».proof.Proof.Gen.ReferenceIdeal.Run
import proofs.«407502_j34686155882626_3_alg».proof.Proof.Gen.ReferenceIdeal.Read
import proofs.«407502_j34686155882626_3_alg».proof.Proof.Gen.Pre_finite_inputs
import proofs.«407502_j34686155882626_3_alg».proof.Proof.FrameK
import proofs.«407502_j34686155882626_3_alg».proof.Proof.FrameKI
import proofs.«407502_j34686155882626_3_alg».proof.Proof.KernelValue
import proofs.«407502_j34686155882626_3_alg».proof.Proof.RefValue
import Idealize.ShloMosaic.Adequacy
import Idealize.ShloMosaic.Init

noncomputable section

namespace Cert.Proof

open Idealize.ShloMosaic Idealize.SL.Sem

/-- The word-level kernel program runs to its end and keeps its arguments. -/
theorem frame_k : Cert.frame_Kernel := fun m ρ _ => Cert.Kernel.Hand.frame m ρ

/-- So does the kernel program read over the extended reals. -/
theorem frame_ki : Cert.frame_KernelIdeal := fun m ρ _ => Cert.KernelIdeal.Hand.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's two result arrays are the whole-batch cell of its arguments; the reference's two results are the same
    cell of its arguments; the arguments agree. -/
theorem algebraic : Cert.algebraic_KernelIdeal_ReferenceIdeal := by
  intro m ρ m' ρ' _ hagree
  refine ⟨fun c => Cert.KernelIdeal.KValue.Gout m c, fun c => Cert.KernelIdeal.KValue.Gnewh m c,
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9⟩ := hagree c
    rw [(h c).1, Cert.ReferenceIdeal.Read.val_main_v53_eq, Cert.ReferenceIdeal.RefValue.out_eq,
      a0, a1, a2, a3, a4, a5, a6, a7, a8, a9]
    rfl
  · obtain ⟨a0, a1, a2, a3, a4, a5, a6, a7, a8, a9⟩ := hagree c
    rw [(h c).2.1, Cert.ReferenceIdeal.Read.val_main_v48_eq, Cert.ReferenceIdeal.RefValue.newh_eq,
      a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
